-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16 : Shape := ⟨1, ![16]⟩
abbrev S16x2048x8 : Shape := ⟨3, ![16, 2048, 8]⟩
abbrev S16x8x2048 : Shape := ⟨3, ![16, 8, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S16x2048x8 : S_.BroadcastsInDim S16x2048x8 (![] : Fin 0 → Fin S16x2048x8.rank)
  reducesTo_S16x2048x8_S_d0_1_2 : S16x2048x8.ReducesTo [0, 1, 2] S_
  bcast_S_S16x8x2048 : S_.BroadcastsInDim S16x8x2048 (![] : Fin 0 → Fin S16x8x2048.rank)
  reducesTo_S16x8x2048_S_d0_1_2 : S16x8x2048.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 16#32
  let main_v18 : IVec S16 32 := broadcastInDim S16 ![] bcast_S_S16 main_c_6
  let main_v19 : IVec S16 1 := cmpi .slt main_arg1 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x2048x2048 .f32) (main_arg1 : IVec S16 32) (main_arg2 : FVec F S16x2048x8 .f32) (main_arg3 : FVec F S16x8x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S16x2048x8 .f32 := Host.absf main_arg2
  let main_cst_0 : FVec F S_ .f32 := constant S_ .f32 0x7F800000#32
  let main_v5 : FVec F S16x2048x8 .f32 := broadcastInDim S16x2048x8 ![] bcast_S_S16x2048x8 main_cst_0
  let main_v6 : IVec S16x2048x8 1 := cmpf .olt main_v4 main_v5
  let main_c_1 : IVec S_ 1 := constantI S_ 1 1#1
  let main_v7 : IVec S_ 1 := (fun x v => Host.reduce IntOp.andi x v reducesTo_S16x2048x8_S_d0_1_2 h_S_) main_v6 main_c_1
  let main_v8 : IVec S_ 1 := andi main_v3 main_v7
  let main_v9 : FVec F S16x8x2048 .f32 := Host.absf main_arg3
  let main_cst_2 : FVec F S_ .f32 := constant S_ .f32 0x7F800000#32
  let main_v10 : FVec F S16x8x2048 .f32 := broadcastInDim S16x8x2048 ![] bcast_S_S16x8x2048 main_cst_2
  let main_v11 : IVec S16x8x2048 1 := cmpf .olt main_v9 main_v10
  let main_c_3 : IVec S_ 1 := constantI S_ 1 1#1
  let main_v12 : IVec S_ 1 := (fun x v => Host.reduce IntOp.andi x v reducesTo_S16x8x2048_S_d0_1_2 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg1 main_v14
  let main_c_5 : IVec S_ 1 := constantI S_ 1 1#1
  fn_part1 (F := F) main_arg1 main_v13 main_v15 main_c_5
-- ==== Kernel.lean ====
abbrev S16x2048x2048 : Shape := ⟨3, ![16, 2048, 2048]⟩
abbrev S16 : Shape := ⟨1, ![16]⟩
abbrev S16x2048x8 : Shape := ⟨3, ![16, 2048, 8]⟩
abbrev S16x8x2048 : Shape := ⟨3, ![16, 8, 2048]⟩
abbrev S_ : Shape := ⟨0, ![]⟩
abbrev S1x512x2048 : Shape := ⟨3, ![1, 512, 2048]⟩
abbrev S1x8x2048 : Shape := ⟨3, ![1, 8, 2048]⟩
abbrev S1 : Shape := ⟨1, ![1]⟩
abbrev S512x2048 : Shape := ⟨2, ![512, 2048]⟩
abbrev S8x2048 : Shape := ⟨2, ![8, 2048]⟩
abbrev S512x8 : Shape := ⟨2, ![512, 8]⟩

abbrev nBuf : Space → Nat
  | .hbm => 13
  | .vmem => 8
  | .smem => 1
  | _ => 0

abbrev bufTy : (tb : Table) → Fin (tcTables nBuf tb) → BufTy
  | .hbm, ⟨0, _⟩ => ⟨S16x2048x2048, .f32⟩
  | .hbm, ⟨1, _⟩ => ⟨S16, .i32⟩
  | .hbm, ⟨2, _⟩ => ⟨S16x2048x8, .f32⟩
  | .hbm, ⟨3, _⟩ => ⟨S16x8x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16x8x2048, .f32⟩
  | .hbm, ⟨12, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x512x2048, .f32⟩
  | .local _ .vmem, ⟨7, _⟩ => ⟨S1x512x2048, .f32⟩
  | .local _ .smem, ⟨0, _⟩ => ⟨S16, .i32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  transposes_S16x2048x8_S16x8x2048_0_2_1 : S16x2048x8.Transposes [0, 2, 1] S16x8x2048
  numel1_S1 : S1.numel = 1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S512x2048_S1x512x2048 : S512x2048.ShapeCasts S1x512x2048
  dot_S512x2048_S8x2048_S512x8_1_1_0_0_n_n_wf : DotDims.WF S512x2048 S8x2048 S512x8 [1] [1] [0] [0] [] []
  dot_S512x8_S8x2048_S512x2048_1_0_0_1_n_n_wf : DotDims.WF S512x8 S8x2048 S512x2048 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)

variable [Facts₀]

def dot_S512x2048_S8x2048_S512x8_1_1_0_0_n_n : DotDims S512x2048 S8x2048 S512x8 where
  lhsContracting := [1]
  rhsContracting := [1]
  lhsNonContracting := [0]
  rhsNonContracting := [0]
  lhsBatch := []
  rhsBatch := []
  wf := dot_S512x2048_S8x2048_S512x8_1_1_0_0_n_n_wf
def dot_S512x8_S8x2048_S512x2048_1_0_0_1_n_n : DotDims S512x8 S8x2048 S512x2048 where
  lhsContracting := [1]
  rhsContracting := [0]
  lhsNonContracting := [0]
  rhsNonContracting := [1]
  lhsBatch := []
  rhsBatch := []
  wf := dot_S512x8_S8x2048_S512x2048_1_0_0_1_n_n_wf

abbrev spec0_0 : Pipeline.WinSpec sig grid0.rank :=
  Pipeline.WinSpec.ofSpec (Memref.whole main_arg0) S1x512x2048.size reads0_0 false false 2 stage0_0 sem0_0 nbuf0_0 hstage0_0

abbrev spec0_1 : Pipeline.WinSpec sig grid0.rank :=
  Pipeline.WinSpec.ofSpec (Memref.whole main_v1) S1x8x2048.size reads0_1 false false 2 stage0_1 sem0_1 nbuf0_1 hstage0_1

abbrev spec0_2 : Pipeline.WinSpec sig grid0.rank :=
  Pipeline.WinSpec.ofSpec (Memref.whole main_arg3) S1x8x2048.size reads0_2 false false 2 stage0_2 sem0_2 nbuf0_2 hstage0_2

abbrev spec0_3 : Pipeline.WinSpec sig grid0.rank :=
  Pipeline.WinSpec.ofSpec (Memref.whole main_v2) S1x512x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x8x2048.size a ≤ S16x8x2048.size a), EltTy.bits .f32 = 32 ∨ (Rect.block (s := S16x8x2048) S1x8x2048.size (cc0_transform_1 k0_off1_inb numel1_S1 pf i) h).WholeWords (EltTy.packing .f32)) ∧
  (∀ i : grid0.Coords, ∃ h : (∀ a, (cc0_transform_2 k0_off1_inb numel1_S1 pf i a + 1) * S1x8x2048.size a ≤ S16x8x2048.size a), EltTy.bits .f32 = 32 ∨ (Rect.block (s := S16x8x2048) S1x8x2048.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x2048 : Shape := ⟨3, ![16, 2048, 2048]⟩
abbrev S16 : Shape := ⟨1, ![16]⟩
abbrev S16x2048x8 : Shape := ⟨3, ![16, 2048, 8]⟩
abbrev S16x8x2048 : Shape := ⟨3, ![16, 8, 2048]⟩
abbrev S_ : Shape := ⟨0, ![]⟩
abbrev S16x1 : Shape := ⟨2, ![16, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16, .i32⟩
  | .hbm, ⟨2, _⟩ => ⟨S16x2048x8, .f32⟩
  | .hbm, ⟨3, _⟩ => ⟨S16x8x2048, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x2048x8, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x8x2048, .f32⟩
  | .hbm, ⟨22, _⟩ => ⟨S16x2048x8, .f32⟩
  | .hbm, ⟨23, _⟩ => ⟨S16x2048x2048, .f32⟩
  | .hbm, ⟨24, _⟩ => ⟨S_, .f32⟩
  | .hbm, ⟨25, _⟩ => ⟨S16x2048x2048, .f32⟩
  | .hbm, ⟨26, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x2048x2048 : S_.BroadcastsInDim S16x2048x2048 (![] : Fin 0 → Fin S16x2048x2048.rank)
  gather_S16x2048x8_S16x1_S16x2048x8_12_0_n_n_0_1_120488_wf : GatherDims.WF S16x2048x8 S16x1 S16x2048x8 [1, 2] [0] [] [0] [] 1 ![1, 2048, 8]
  gather_S16x8x2048_S16x1_S16x8x2048_12_0_n_n_0_1_182048_wf : GatherDims.WF S16x8x2048 S16x1 S16x8x2048 [1, 2] [0] [] [0] [] 1 ![1, 8, 2048]
  dot_S16x2048x2048_S16x2048x8_S16x2048x8_2_1_1_2_0_0_wf : DotDims.WF S16x2048x2048 S16x2048x8 S16x2048x8 [2] [1] [1] [2] [0] [0]
  dot_S16x2048x8_S16x8x2048_S16x2048x2048_2_1_1_2_0_0_wf : DotDims.WF S16x2048x8 S16x8x2048 S16x2048x2048 [2] [1] [1] [2] [0] [0]

variable [Facts₀]

def gather_S16x2048x8_S16x1_S16x2048x8_12_0_n_n_0_1_120488 : GatherDims S16x2048x8 S16x1 S16x2048x8 where
  offsetDims := [1, 2]
  collapsedSliceDims := [0]
  operandBatchingDims := []
  startIndicesBatchingDims := []
  startIndexMap := [0]
  indexVectorDim := 1
  sliceSizes := ![1, 2048, 8]
  wf := gather_S16x2048x8_S16x1_S16x2048x8_12_0_n_n_0_1_120488_wf
def gather_S16x8x2048_S16x1_S16x8x2048_12_0_n_n_0_1_182048 : GatherDims S16x8x2048 S16x1 S16x8x2048 where
  offsetDims := [1, 2]
  collapsedSliceDims := [0]
  operandBatchingDims := []
  startIndicesBatchingDims := []
  startIndexMap := [0]
  indexVectorDim := 1
  sliceSizes := ![1, 8, 2048]
  wf := gather_S16x8x2048_S16x1_S16x8x2048_12_0_n_n_0_1_182048_wf
def dot_S16x2048x2048_S16x2048x8_S16x2048x8_2_1_1_2_0_0 : DotDims S16x2048x2048 S16x2048x8 S16x2048x8 where
  lhsContracting := [2]
  rhsContracting := [1]
  lhsNonContracting := [1]
  rhsNonContracting := [2]
  lhsBatch := [0]
  rhsBatch := [0]
  wf := dot_S16x2048x2048_S16x2048x8_S16x2048x8_2_1_1_2_0_0_wf
def dot_S16x2048x8_S16x8x2048_S16x2048x2048_2_1_1_2_0_0 : DotDims S16x2048x8 S16x8x2048 S16x2048x2048 where
  lhsContracting := [2]
  rhsContracting := [1]
  lhsNonContracting := [1]
  rhsNonContracting := [2]
  lhsBatch := [0]
  rhsBatch := [0]
  wf := dot_S16x2048x8_S16x8x2048_S16x2048x2048_2_1_1_2_0_0_wf

class Facts : Prop extends Facts₀ where

variable [Facts]
-- ==== Proof.Spec.lean ====
/-
  The function both programs compute, and the one law that joins their two spellings.

  For example `b` of the batch, sequence row `s` and output column `o`, with `k` the adapter the index word of
  example `b` names in the pool of sixteen,

      out[b, s, o] = (Σ_r (Σ_i x[b, s, i] · A[k, i, r]) · B[k, r, o]) · c

  where `c` is the scale 2.0. One program scales the rank-8 intermediate before the second contraction,
  Σ_r ((Σ_i x·A) · c) · B, the other scales the result. Over real numbers the two agree by distributivity; over the
  extended reals distributivity fails at the infinities, so the law is stated for arrays all of whose entries are
  real numbers, which is what the precondition grants.
-/
import Idealize.ShloMosaic.PureOps.Ideal
import Idealize.ShloMosaic.Lib.ValueIdx

noncomputable section

open scoped BigOperators

namespace Cert.LoraSpec

open Idealize.ShloMosaic Idealize.ShloMosaic.ValueIdx

/-- The activations `[16, 2048, 2048]`, the two adapter pools `[16, 2048, 8]` and `[16, 8, 2048]`, the index words `[16]`. -/
abbrev SX : Shape := ⟨3, ![16, 2048, 2048]⟩
abbrev SA : Shape := ⟨3, ![16, 2048, 8]⟩
abbrev SB : Shape := ⟨3, ![16, 8, 2048]⟩
abbrev SI : Shape := ⟨1, ![16]⟩

/-- The scale: the float word of 2.0 read as an extended real. -/
def scale : EReal := Ideal.ofBits .f32 0x40000000#32

/-- The word of 2.0 denotes the real number 2. -/
theorem scale_eq : scale = ((2 : ℝ) : EReal) := by
  unfold scale
  simp [Ideal.ofBits, Ideal.ieee, -EReal.coe_mul]; norm_num

/-- An extended real that is a real number. -/
def IsReal (a : EReal) : Prop := ∃ r : ℝ, a = (r : EReal)

theorem scale_real : IsReal scale := ⟨2, scale_eq⟩

/-- The adapter example `b` uses: its index word as a number, capped at the pool's last adapter. -/
def adapter (idx : SI.Idx → BitVec 32) (b : Fin 16) : Fin 16 := ⟨min (idx (ix1 b)).toNat 15, by omega⟩

/-- Row `(b, s)` of the activations projected on rank coordinate `r` of adapter `k`: Σ_i x[b, s, i] · A[k, i, r]. -/
def proj (x : SX.Idx → EReal) (A : SA.Idx → EReal) (k b : Fin 16) (s : Fin 2048) (r : Fin 8) : EReal :=
  ∑ i : Fin 2048, x (ix3 b s i) * A (ix3 k i r)

/-- The result at coordinates `(b, s, o)`, scaled at the end. -/
def loraAt (x : SX.Idx → EReal) (A : SA.Idx → EReal) (B : SB.Idx → EReal) (idx : SI.Idx → BitVec 32)
    (b : Fin 16) (s o : Fin 2048) : EReal :=
  (∑ r : Fin 8, proj x A (adapter idx b) b s r * B (ix3 (adapter idx b) r o)) * scale

/-- The result array as one function of the four argument arrays. -/
def lora (x : SX.Idx → EReal) (A : SA.Idx → EReal) (B : SB.Idx → EReal) (idx : SI.Idx → BitVec 32) : SX.Idx → EReal :=
  fun j => loraAt x A B idx (j 0) (j 1) (j 2)

theorem lora_ix3 (x : SX.Idx → EReal) (A : SA.Idx → EReal) (B : SB.Idx → EReal) (idx : SI.Idx → BitVec 32)
    (b : Fin 16) (s o : Fin 2048) : lora x A B idx (ix3 b s o) = loraAt x A B idx b s o := rfl

/-- The same with the scale applied to the rank-8 intermediate, before the second contraction. -/
def loraInnerAt (x : SX.Idx → EReal) (A : SA.Idx → EReal) (B : SB.Idx → EReal) (idx : SI.Idx → BitVec 32)
    (b : Fin 16) (s o : Fin 2048) : EReal :=
  ∑ r : Fin 8, (proj x A (adapter idx b) b s r * scale) * B (ix3 (adapter idx b) r o)

/-! ## Real numbers inside the extended reals -/

/-- The embedding of the reals commutes with finite sums. -/
theorem coe_sum {ι : Type} (S : Finset ι) (f : ι → ℝ) : ((∑ i ∈ S, f i : ℝ) : EReal) = ∑ i ∈ S, (f i : EReal) := by
  classical
  refine Finset.induction_on S ?_ ?_
  · simp
  · intro a S ha ih
    rw [Finset.sum_insert ha, Finset.sum_insert ha, EReal.coe_add, ih]

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.sum {ι : Type} [Fintype ι] (f : ι → EReal) (h : ∀ i, IsReal (f i)) : IsReal (∑ i, f i) := by
  choose g hg using h
  exact ⟨∑ i, g i, by simp only [hg, coe_sum]⟩

/-- A projection of real arrays is a real number. -/
theorem proj_real (x : SX.Idx → EReal) (A : SA.Idx → EReal) (hx : ∀ j, IsReal (x j)) (hA : ∀ j, IsReal (A j))
    (k b : Fin 16) (s : Fin 2048) (r : Fin 8) : IsReal (proj x A k b s r) :=
  IsReal.sum _ fun _ => (hx _).mul (hA _)

/-! ## The law -/

/-- Over the reals a common factor moves out of a sum of products. -/
theorem sum_scale_real (u v : Fin 8 → ℝ) (c : ℝ) :
    ∑ r, ((u r : EReal) * (c : EReal)) * (v r : EReal) = (∑ r, (u r : EReal) * (v r : EReal)) * (c : EReal) := by
  simp only [← EReal.coe_mul, ← coe_sum]
  refine congrArg _ ?_
  rw [Finset.sum_mul]
  exact Finset.sum_congr rfl fun r _ => by ring

/-- The same for extended reals that are real numbers. -/
theorem sum_scale (u v : Fin 8 → EReal) (c : EReal) (hu : ∀ r, IsReal (u r)) (hv : ∀ r, IsReal (v r)) (hc : IsReal c) :
    ∑ r, (u r * c) * v r = (∑ r, u r * v r) * c := by
  choose u' hu' using hu
  choose v' hv' using hv
  obtain ⟨c', rfl⟩ := hc
  simp only [hu', hv']
  exact sum_scale_real u' v' c'

/-- Scaling the intermediate or the result is the same on real arrays. -/
theorem loraInnerAt_eq (x : SX.Idx → EReal) (A : SA.Idx → EReal) (B : SB.Idx → EReal) (idx : SI.Idx → BitVec 32)
    (hx : ∀ j, IsReal (x j)) (hA : ∀ j, IsReal (A j)) (hB : ∀ j, IsReal (B j)) (b : Fin 16) (s o : Fin 2048) :
    loraInnerAt x A B idx b s o = loraAt x A B idx b s o :=
  sum_scale _ _ scale (fun r => proj_real x A hx hA _ _ _ r) (fun _ => hB _) scale_real

end Cert.LoraSpec

end
-- ==== Proof.PreFacts.lean ====
/-
  What the precondition says of the four argument arrays: every index word names an adapter of the pool
  (0 ≤ idx[b] < 16, read signed, so below 16 as a number), and every entry of the three float arrays is a real number.

  The precondition is the conjunction of five "for all entries" tests, each a reduction by `and` into one bit. The bit
  being 1 gives each test at every entry (`pre_elements`). The two integer tests 0 ≤ w and w < 16, signed, put the word
  in [0, 16) as a number (`word_lt_of_signed`); the float test |a| < +∞ over the extended reals excludes both infinities,
  since |−∞| = |+∞| = +∞, so the entry is a real number (`isReal_of_abs_lt_top`).
-/
import proofs.«412675_j34394098106459_3_alg».proof.Pre_finite_inputs
import proofs.«412675_j34394098106459_3_alg».proof.Proof.Gen.Pre_finite_inputs
import proofs.«412675_j34394098106459_3_alg».proof.Proof.Spec
import Idealize.ShloMosaic.Lib.ReduceAll
import Idealize.ShloMosaic.Lib.StableHlo.Predicate

noncomputable section

namespace Cert.LoraPre

open Idealize.ShloMosaic Idealize.ShloMosaic.ValueIdx Cert.LoraSpec

/-- The rank-0 shape has one index. -/
theorem subsingleton_scalar_idx : Subsingleton Cert.Pre_finite_inputs.S_.Idx :=
  ⟨fun _ _ => funext fun d => d.elim0⟩

/-- The five tests of the precondition, entry by entry: |x| < +∞, |A| < +∞, |B| < +∞ as float comparisons against the
    word of +∞, and 0 ≤ idx, idx < 16 as signed word comparisons. -/
theorem pre_elements {F : FTy → Type} [FloatOps F] (x : FVec F SX .f32) (idx : IVec SI 32) (A : FVec F SA .f32) (B : FVec F SB .f32)
    (h : Cert.Pre_finite_inputs.fn (F := F) x idx A B = fun _ => 1#1) :
    (∀ j, FloatOps.cmpf .olt (FloatOps.hostAbsf (x j)) (FloatOps.ofBits (F := F) .f32 0x7F800000#32) = 1#1)
    ∧ (∀ j, FloatOps.cmpf .olt (FloatOps.hostAbsf (A j)) (FloatOps.ofBits (F := F) .f32 0x7F800000#32) = 1#1)
    ∧ (∀ j, FloatOps.cmpf .olt (FloatOps.hostAbsf (B j)) (FloatOps.ofBits (F := F) .f32 0x7F800000#32) = 1#1)
    ∧ (∀ j, IntOp.cmpi .sge (idx j) 0#32 = 1#1)
    ∧ (∀ j, IntOp.cmpi .slt (idx j) 16#32 = 1#1) := by
  haveI := subsingleton_scalar_idx
  have e := congrFun h ValueIdx.ix0
  unfold Cert.Pre_finite_inputs.fn Cert.Pre_finite_inputs.fn_part1 at e
  dsimp only at e
  -- the result bit is ((((t₁ ∧ t₂) ∧ t₃) ∧ t₄) ∧ t₅): peel the conjunction from the outside
  obtain ⟨e4, h5⟩ := IntOp.andi_eq_one.1 e
  obtain ⟨e3, h4⟩ := IntOp.andi_eq_one.1 e4
  obtain ⟨e2, h3⟩ := IntOp.andi_eq_one.1 e3
  obtain ⟨h1, h2⟩ := IntOp.andi_eq_one.1 e2
  -- each tᵢ is an `and` over all entries of an array of bits: every bit is 1
  exact ⟨fun j => Host.reduce_andi_all _ _ _ _ _ h1 j, fun j => Host.reduce_andi_all _ _ _ _ _ h2 j,
    fun j => Host.reduce_andi_all _ _ _ _ _ h3 j, fun j => Host.reduce_andi_all _ _ _ _ _ h4 j,
    fun j => Host.reduce_andi_all _ _ _ _ _ h5 j⟩

/-- A 32-bit word with 0 ≤ w and w < 16 read signed is below 16 read unsigned: a non-negative signed value is the
    unsigned one. -/
theorem word_lt_of_signed (w : BitVec 32) (h0 : IntOp.cmpi .sge w 0#32 = 1#1) (h1 : IntOp.cmpi .slt w 16#32 = 1#1) :
    w.toNat < 16 := by
  have a0 : (0#32 : BitVec 32).sle w = true := (StableHlo.Predicate.ofBool_eq_one_iff _).1 h0
  have a1 : w.slt 16#32 = true := (StableHlo.Predicate.ofBool_eq_one_iff _).1 h1
  rw [BitVec.sle_iff_toInt_le] at a0
  rw [BitVec.slt_iff_toInt_lt] at a1
  have hw := w.isLt
  have z : (0#32 : BitVec 32).toInt = 0 := by decide
  have s : (16#32 : BitVec 32).toInt = 16 := by decide
  rw [z, BitVec.toInt_eq_toNat_cond] at a0
  rw [s, BitVec.toInt_eq_toNat_cond] at a1
  split at a0 <;> split at a1 <;> omega

/-- An extended real whose absolute value max(a, −a) is below +∞ (the word 0x7F800000) is a real number. -/
theorem isReal_of_abs_lt_top (a : EReal)
    (h : FloatOps.cmpf (F := Ideal) (φ := .f32) .olt (FloatOps.hostAbsf (F := Ideal) (φ := .f32) a)
      (FloatOps.ofBits (F := Ideal) .f32 0x7F800000#32) = 1#1) : IsReal a := by
  have htop : Ideal.ofBits .f32 0x7F800000#32 = (⊤ : EReal) := by simp [Ideal.ofBits, Ideal.ieee]
  change Ideal.cmp .olt (max a (-a)) (Ideal.ofBits .f32 0x7F800000#32) = 1#1 at h
  rw [htop] at h
  have hlt : max a (-a) < ⊤ := by
    simpa [Ideal.cmp, StableHlo.Predicate.ofBool_eq_one_iff] using h
  induction a using EReal.rec with
  | bot => simp at hlt
  | coe r => exact ⟨r, rfl⟩
  | top => simp at hlt

/-- Every index word is below 16. -/
theorem idx_lt {F : FTy → Type} [FloatOps F] (x : FVec F SX .f32) (idx : IVec SI 32) (A : FVec F SA .f32) (B : FVec F SB .f32)
    (h : Cert.Pre_finite_inputs.fn (F := F) x idx A B = fun _ => 1#1) (b : Fin 16) : (idx (ix1 b)).toNat < 16 := by
  obtain ⟨-, -, -, h0, h1⟩ := pre_elements x idx A B h
  exact word_lt_of_signed _ (h0 (ix1 b)) (h1 (ix1 b))

/-- Every activation is a real number. -/
theorem x_real (x : FVec Ideal SX .f32) (idx : IVec SI 32) (A : FVec Ideal SA .f32) (B : FVec Ideal SB .f32)
    (h : Cert.Pre_finite_inputs.fn (F := Ideal) x idx A B = fun _ => 1#1) (j : SX.Idx) : IsReal (x j) := by
  exact isReal_of_abs_lt_top _ ((pre_elements x idx A B h).1 j)

/-- Every entry of the first adapter pool is a real number. -/
theorem a_real (x : FVec Ideal SX .f32) (idx : IVec SI 32) (A : FVec Ideal SA .f32) (B : FVec Ideal SB .f32)
    (h : Cert.Pre_finite_inputs.fn (F := Ideal) x idx A B = fun _ => 1#1) (j : SA.Idx) : IsReal (A j) := by
  exact isReal_of_abs_lt_top _ ((pre_elements x idx A B h).2.1 j)

/-- Every entry of the second adapter pool is a real number. -/
theorem b_real (x : FVec Ideal SX .f32) (idx : IVec SI 32) (A : FVec Ideal SA .f32) (B : FVec Ideal SB .f32)
    (h : Cert.Pre_finite_inputs.fn (F := Ideal) x idx A B = fun _ => 1#1) (j : SB.Idx) : IsReal (B j) := by
  exact isReal_of_abs_lt_top _ ((pre_elements x idx A B h).2.2.1 j)

end Cert.LoraPre

end
-- ==== Proof.KernelTbl.lean ====
/-
  The table of adapter indices the kernel's index maps read: the index words clamped to [0, 15] by the host before the
  launch. When every word is already below 16 the table is the words themselves, and each adapter block the maps name
  lies inside its pool.
-/
import proofs.«412675_j34394098106459_3_alg».proof.Proof.Gen.Kernel.Frame
import proofs.«412675_j34394098106459_3_alg».proof.Proof.Spec
import Idealize.ShloMosaic.Lib.StableHlo.Predicate

set_option maxRecDepth 16384

noncomputable section

namespace Cert.Kernel.Tbl

open Cert.Kernel Cert.Kernel.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The index words as launched, on the program's one device. -/
abbrev idxOf : IVec S16 32 := m (((0 : Dev nD) : Thread nD τ).loc main_arg1)

/-- The table is the clamp of the index words to [0, 15]: min(15, max(0, idx)), each constant a scalar broadcast along
    the sixteen words. -/
theorem tbl_clip : tbl m 0 = minsi (broadcastInDim S16 ![] bcast_S_S16 (constantI S_ 32 15#32)) (maxsi (broadcastInDim S16 ![] bcast_S_S16 (constantI S_ 32 0#32)) (idxOf m)) := by
  unfold tbl
  show V m 0 main_v0 = _
  dsimp only [V]
  simp only [hostOps0, hostOps0_1, hostOps0_2, List.flatten_cons, List.flatten_nil, List.append_nil, List.cons_append, List.nil_append]
  after_results
  rfl

/-- A word below 16 passes the signed clamp to [0, 15], the constant the first operand of each: min(15, max(0, w)) = w.
    Such a word reads the same signed and unsigned, so it is not below 0 and 15 is not below it. -/
theorem clip_word (w : BitVec 32) (hw : w.toNat < 16) : IntOp.minsi 15#32 (IntOp.maxsi 0#32 w) = w := by
  have hti : w.toInt = w.toNat := StableHlo.Predicate.toInt_eq_toNat_of_lt (by omega)
  have h0 : (0#32 : BitVec 32).toInt = 0 := by decide
  have h15 : (15#32 : BitVec 32).toInt = 15 := by decide
  have hmax : IntOp.maxsi 0#32 w = w := by
    unfold IntOp.maxsi
    split <;> rename_i hc <;> simp only [BitVec.slt, hti, h0, decide_eq_true_eq] at hc
    all_goals first | rfl | omega
  rw [hmax]
  unfold IntOp.minsi
  split <;> rename_i hc <;> simp only [BitVec.slt, hti, h15, decide_eq_true_eq] at hc
  all_goals first | rfl | omega

/-- Words below 16 pass the clamp unchanged: the table is the index words. -/
theorem tbl_eq (h : ∀ b : Fin 16, (idxOf m (ix1 b)).toNat < 16) (b : Fin 16) : tbl m 0 (ix1 b) = idxOf m (ix1 b) := by
  refine (congrFun (tbl_clip m) (ix1 b)).trans ?_
  show IntOp.minsi 15#32 (IntOp.maxsi 0#32 (idxOf m (ix1 b))) = _
  exact clip_word _ (h b)

/-- The one-word rectangle through which an index map reads the table at grid row `i 0` sits at the table's index
    `i 0`: the row, below 16, survives the passage through a 32-bit word. -/
theorem unit_emb (i : grid0.Coords) :
    (Rect.unit (s := S16) ![(Scalar.indexCast (BitVec.ofNat 32 (i 0).val)).toNat] S1.size (k0_off1_inb i)).emb (Shape.Idx.first (numel1_S1.symm ▸ Nat.one_pos))
      = ix1 (⟨(i 0).val, (i 0).isLt⟩ : Fin 16) := by
  funext a
  apply Fin.ext
  have hi : (i 0).val < 16 := (i 0).isLt
  match a with
  | ⟨0, _⟩ =>
    show (BitVec.ofNat 32 (i 0).val).toNat + 1 * 0 = (i 0).val
    rw [BitVec.toNat_ofNat]
    omega

/-- The index map of the first adapter pool, at any contents `pf` of the table: block (pf[i 0], 0, 0). -/
theorem transform_1_eq (pf : pre0.Contents (Elt F)) (i : grid0.Coords) :
    cc0_transform_1 k0_off1_inb numel1_S1 pf i = ![(pf 0 (ix1 (⟨(i 0).val, (i 0).isLt⟩ : Fin 16))).toNat, 0, 0] :=
  congrArg (fun x => (![(pf 0 x).toNat, 0, 0] : Fin 3 → Nat)) (unit_emb i)

/-- The index map of the second adapter pool, likewise: block (pf[i 0], 0, 0). -/
theorem transform_2_eq (pf : pre0.Contents (Elt F)) (i : grid0.Coords) :
    cc0_transform_2 k0_off1_inb numel1_S1 pf i = ![(pf 0 (ix1 (⟨(i 0).val, (i 0).isLt⟩ : Fin 16))).toNat, 0, 0] :=
  congrArg (fun x => (![(pf 0 x).toNat, 0, 0] : Fin 3 → Nat)) (unit_emb i)

/-- With every word below 16, each adapter block the index maps name lies inside its pool. -/
theorem ok_of_lt (h : ∀ b : Fin 16, (idxOf m (ix1 b)).toNat < 16) : Ok m := by
  have hw : ∀ b : Fin 16, (tbl m 0 (ix1 b)).toNat < 16 := fun b => by rw [tbl_eq m h b]; exact h b
  refine ⟨fun i => ?_, fun i => ?_⟩
  · refine ⟨fun a => ?_, Or.inl rfl⟩
    rw [transform_1_eq (tbl m) i]
    have := hw ⟨(i 0).val, (i 0).isLt⟩
    fin_cases a <;> simp [S1x8x2048, S16x8x2048] <;> omega
  · refine ⟨fun a => ?_, Or.inl rfl⟩
    rw [transform_2_eq (tbl m) i]
    have := hw ⟨(i 0).val, (i 0).isLt⟩
    fin_cases a <;> simp [S1x8x2048, S16x8x2048] <;> omega

end Cert.Kernel.Tbl

end
-- ==== Proof.KernelIdealTbl.lean ====
/-
  The table of adapter indices the kernel's index maps read: the index words clamped to [0, 15] by the host before the
  launch. When every word is already below 16 the table is the words themselves, and each adapter block the maps name
  lies inside its pool.
-/
import proofs.«412675_j34394098106459_3_alg».proof.Proof.Gen.KernelIdeal.Frame
import proofs.«412675_j34394098106459_3_alg».proof.Proof.Spec
import Idealize.ShloMosaic.Lib.StableHlo.Predicate

set_option maxRecDepth 16384

noncomputable section

namespace Cert.KernelIdeal.Tbl

open Cert.KernelIdeal Cert.KernelIdeal.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The index words as launched, on the program's one device. -/
abbrev idxOf : IVec S16 32 := m (((0 : Dev nD) : Thread nD τ).loc main_arg1)

/-- The table is the clamp of the index words to [0, 15]: min(15, max(0, idx)), each constant a scalar broadcast along
    the sixteen words. -/
theorem tbl_clip : tbl m 0 = minsi (broadcastInDim S16 ![] bcast_S_S16 (constantI S_ 32 15#32)) (maxsi (broadcastInDim S16 ![] bcast_S_S16 (constantI S_ 32 0#32)) (idxOf m)) := by
  unfold tbl
  show V m 0 main_v0 = _
  dsimp only [V]
  simp only [hostOps0, hostOps0_1, hostOps0_2, List.flatten_cons, List.flatten_nil, List.append_nil, List.cons_append, List.nil_append]
  after_results
  rfl

/-- A word below 16 passes the signed clamp to [0, 15], the constant the first operand of each: min(15, max(0, w)) = w.
    Such a word reads the same signed and unsigned, so it is not below 0 and 15 is not below it. -/
theorem clip_word (w : BitVec 32) (hw : w.toNat < 16) : IntOp.minsi 15#32 (IntOp.maxsi 0#32 w) = w := by
  have hti : w.toInt = w.toNat := StableHlo.Predicate.toInt_eq_toNat_of_lt (by omega)
  have h0 : (0#32 : BitVec 32).toInt = 0 := by decide
  have h15 : (15#32 : BitVec 32).toInt = 15 := by decide
  have hmax : IntOp.maxsi 0#32 w = w := by
    unfold IntOp.maxsi
    split <;> rename_i hc <;> simp only [BitVec.slt, hti, h0, decide_eq_true_eq] at hc
    all_goals first | rfl | omega
  rw [hmax]
  unfold IntOp.minsi
  split <;> rename_i hc <;> simp only [BitVec.slt, hti, h15, decide_eq_true_eq] at hc
  all_goals first | rfl | omega

/-- Words below 16 pass the clamp unchanged: the table is the index words. -/
theorem tbl_eq (h : ∀ b : Fin 16, (idxOf m (ix1 b)).toNat < 16) (b : Fin 16) : tbl m 0 (ix1 b) = idxOf m (ix1 b) := by
  refine (congrFun (tbl_clip m) (ix1 b)).trans ?_
  show IntOp.minsi 15#32 (IntOp.maxsi 0#32 (idxOf m (ix1 b))) = _
  exact clip_word _ (h b)

/-- The one-word rectangle through which an index map reads the table at grid row `i 0` sits at the table's index
    `i 0`: the row, below 16, survives the passage through a 32-bit word. -/
theorem unit_emb (i : grid0.Coords) :
    (Rect.unit (s := S16) ![(Scalar.indexCast (BitVec.ofNat 32 (i 0).val)).toNat] S1.size (k0_off1_inb i)).emb (Shape.Idx.first (numel1_S1.symm ▸ Nat.one_pos))
      = ix1 (⟨(i 0).val, (i 0).isLt⟩ : Fin 16) := by
  funext a
  apply Fin.ext
  have hi : (i 0).val < 16 := (i 0).isLt
  match a with
  | ⟨0, _⟩ =>
    show (BitVec.ofNat 32 (i 0).val).toNat + 1 * 0 = (i 0).val
    rw [BitVec.toNat_ofNat]
    omega

/-- The index map of the first adapter pool, at any contents `pf` of the table: block (pf[i 0], 0, 0). -/
theorem transform_1_eq (pf : pre0.Contents (Elt F)) (i : grid0.Coords) :
    cc0_transform_1 k0_off1_inb numel1_S1 pf i = ![(pf 0 (ix1 (⟨(i 0).val, (i 0).isLt⟩ : Fin 16))).toNat, 0, 0] :=
  congrArg (fun x => (![(pf 0 x).toNat, 0, 0] : Fin 3 → Nat)) (unit_emb i)

/-- The index map of the second adapter pool, likewise: block (pf[i 0], 0, 0). -/
theorem transform_2_eq (pf : pre0.Contents (Elt F)) (i : grid0.Coords) :
    cc0_transform_2 k0_off1_inb numel1_S1 pf i = ![(pf 0 (ix1 (⟨(i 0).val, (i 0).isLt⟩ : Fin 16))).toNat, 0, 0] :=
  congrArg (fun x => (![(pf 0 x).toNat, 0, 0] : Fin 3 → Nat)) (unit_emb i)

/-- With every word below 16, each adapter block the index maps name lies inside its pool. -/
theorem ok_of_lt (h : ∀ b : Fin 16, (idxOf m (ix1 b)).toNat < 16) : Ok m := by
  have hw : ∀ b : Fin 16, (tbl m 0 (ix1 b)).toNat < 16 := fun b => by rw [tbl_eq m h b]; exact h b
  refine ⟨fun i => ?_, fun i => ?_⟩
  · refine ⟨fun a => ?_, Or.inl rfl⟩
    rw [transform_1_eq (tbl m) i]
    have := hw ⟨(i 0).val, (i 0).isLt⟩
    fin_cases a <;> simp [S1x8x2048, S16x8x2048] <;> omega
  · refine ⟨fun a => ?_, Or.inl rfl⟩
    rw [transform_2_eq (tbl m) i]
    have := hw ⟨(i 0).val, (i 0).isLt⟩
    fin_cases a <;> simp [S1x8x2048, S16x8x2048] <;> omega

end Cert.KernelIdeal.Tbl

end
-- ==== Proof.KernelBlocks.lean ====
/-
  Where the kernel's blocks sit in their arrays. The grid has 16 × 4 points, the batch axis outermost: point `t` works
  on example `t / 4` and on the rows 512 · (t % 4) … 512 · (t % 4) + 511 of its sequence. The activations' block and the
  output's block at `t` are those 512 rows; each adapter pool's block is the whole adapter the table names for the
  example. The body stores its block once, whole, so the output's staging buffer ends at the body's arithmetic of the
  three input blocks; and the 64 output blocks tile the result array. Everything here is stated with the table's
  contents a variable, so that nothing depends on what the table holds.
-/
import proofs.«412675_j34394098106459_3_alg».proof.Proof.Gen.KernelIdeal.Frame
import proofs.«412675_j34394098106459_3_alg».proof.Proof.Spec
import Idealize.ShloMosaic.Lib.Pipeline.Value
import Idealize.ShloMosaic.Lib.ValueIdx
import Idealize.ShloMosaic.Lib.Tactic

set_option maxRecDepth 16384
noncomputable section
namespace Cert.KernelIdeal.Blocks
open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz3 : (![0, 0, 0] : Fin 3 → Nat) = fun _ => 0 := funext fun a => by fin_cases a <;> rfl

/-- The grid runs the batch axis outermost: point `t` is example `t / 4`, sequence tile `t % 4`. -/
theorem tr0 : ∀ t : Fin grid0.N, cc0_transform_0 (grid0.coords t) = ![t.val / 4, t.val % 4, 0] := by decide +kernel
theorem tr3 : ∀ t : Fin grid0.N, cc0_transform_3 (grid0.coords t) = ![t.val / 4, t.val % 4, 0] := by decide +kernel
theorem co0 : ∀ t : Fin grid0.N, (grid0.coords t 0).val = t.val / 4 := by decide +kernel

theorem idx0 (a : (pcfg0 (F := F)).Adm) (t : Fin (cfg0 a).N) : ((cfg0 a).win 0).index t = ![t.val / 4, t.val % 4, 0] := tr0 t
theorem idx3 (a : (pcfg0 (F := F)).Adm) (t : Fin (cfg0 a).N) : ((cfg0 a).win 3).index t = ![t.val / 4, t.val % 4, 0] := tr3 t
theorem idx1 (a : (pcfg0 (F := F)).Adm) (t : Fin (cfg0 a).N) : ((cfg0 a).win 1).index t = cc0_transform_1 k0_off1_inb numel1_S1 a.1 (grid0.coords t) := rfl
theorem idx2 (a : (pcfg0 (F := F)).Adm) (t : Fin (cfg0 a).N) : ((cfg0 a).win 2).index t = cc0_transform_2 k0_off1_inb numel1_S1 a.1 (grid0.coords t) := rfl

theorem t_lt (a : (pcfg0 (F := F)).Adm) (t : Fin (cfg0 a).N) : t.val < 64 := by have := t.isLt; have : (cfg0 a).N = 64 := N_0; omega

/-- The activations' block at point `t`, read at `(0, p, i)`: row `512 · (t % 4) + p` of example `t / 4`. -/
theorem read0 (a : (pcfg0 (F := F)).Adm) (t : Fin (cfg0 a).N) (X : S16x2048x2048.Idx → Elt F .f32) (p : Fin 512) (i : Fin 2048) :
    (((cfg0 a).win 0).blk t).view.read (Elt F) X (ix3 (0 : Fin 1) p i)
      = X (ix3 (⟨t.val / 4, by have := t_lt a t; omega⟩ : Fin 16) (⟨512 * (t.val % 4) + p.val, by omega⟩ : Fin 2048) i) := by
  show X ((((cfg0 a).win 0).blk t).view.emb (ix3 (0 : Fin 1) p i)) = _
  refine congrArg X ?_
  funext d
  apply Fin.ext
  have hi := idx0 a t
  match d with
  | ⟨0, _⟩ =>
    show ((cfg0 a).win 0).index t (0 : Fin 3) * 1 + 1 * 0 = t.val / 4
    rw [hi]; simp
  | ⟨1, _⟩ =>
    show ((cfg0 a).win 0).index t (1 : Fin 3) * 512 + 1 * p.val = 512 * (t.val % 4) + p.val
    rw [hi]; simp; omega
  | ⟨2, _⟩ =>
    show ((cfg0 a).win 0).index t (2 : Fin 3) * 2048 + 1 * i.val = i.val
    rw [hi]; simp

/-- The output's block at point `t`, read at `(0, p, q)`: the same rows of the result. -/
theorem read3 (a : (pcfg0 (F := F)).Adm) (t : Fin (cfg0 a).N) (X : S16x2048x2048.Idx → Elt F .f32) (p : Fin 512) (q : Fin 2048) :
    (((cfg0 a).win 3).blk t).view.read (Elt F) X (ix3 (0 : Fin 1) p q)
      = X (ix3 (⟨t.val / 4, by have := t_lt a t; omega⟩ : Fin 16) (⟨512 * (t.val % 4) + p.val, by omega⟩ : Fin 2048) q) := by
  show X ((((cfg0 a).win 3).blk t).view.emb (ix3 (0 : Fin 1) p q)) = _
  refine congrArg X ?_
  funext d
  apply Fin.ext
  have hi := idx3 a t
  match d with
  | ⟨0, _⟩ =>
    show ((cfg0 a).win 3).index t (0 : Fin 3) * 1 + 1 * 0 = t.val / 4
    rw [hi]; simp
  | ⟨1, _⟩ =>
    show ((cfg0 a).win 3).index t (1 : Fin 3) * 512 + 1 * p.val = 512 * (t.val % 4) + p.val
    rw [hi]; simp; omega
  | ⟨2, _⟩ =>
    show ((cfg0 a).win 3).index t (2 : Fin 3) * 2048 + 1 * q.val = q.val
    rw [hi]; simp

/-- An adapter block whose index map names adapter `k`, read at `(0, r, i)`: row `r` of adapter `k`. -/
theorem read1 (a : (pcfg0 (F := F)).Adm) (t : Fin (cfg0 a).N) (k : Fin 16) (hix : ((cfg0 a).win 1).index t = ![k.val, 0, 0])
    (X : S16x8x2048.Idx → Elt F .f32) (r : Fin 8) (i : Fin 2048) :
    (((cfg0 a).win 1).blk t).view.read (Elt F) X (ix3 (0 : Fin 1) r i) = X (ix3 k r i) := by
  show X ((((cfg0 a).win 1).blk t).view.emb (ix3 (0 : Fin 1) r i)) = _
  refine congrArg X ?_
  funext d
  apply Fin.ext
  match d with
  | ⟨0, _⟩ =>
    show ((cfg0 a).win 1).index t (0 : Fin 3) * 1 + 1 * 0 = k.val
    rw [hix]; simp
  | ⟨1, _⟩ =>
    show ((cfg0 a).win 1).index t (1 : Fin 3) * 8 + 1 * r.val = r.val
    rw [hix]; simp
  | ⟨2, _⟩ =>
    show ((cfg0 a).win 1).index t (2 : Fin 3) * 2048 + 1 * i.val = i.val
    rw [hix]; simp

theorem read2 (a : (pcfg0 (F := F)).Adm) (t : Fin (cfg0 a).N) (k : Fin 16) (hix : ((cfg0 a).win 2).index t = ![k.val, 0, 0])
    (X : S16x8x2048.Idx → Elt F .f32) (r : Fin 8) (q : Fin 2048) :
    (((cfg0 a).win 2).blk t).view.read (Elt F) X (ix3 (0 : Fin 1) r q) = X (ix3 k r q) := by
  show X ((((cfg0 a).win 2).blk t).view.emb (ix3 (0 : Fin 1) r q)) = _
  refine congrArg X ?_
  funext d
  apply Fin.ext
  match d with
  | ⟨0, _⟩ =>
    show ((cfg0 a).win 2).index t (0 : Fin 3) * 1 + 1 * 0 = k.val
    rw [hix]; simp
  | ⟨1, _⟩ =>
    show ((cfg0 a).win 2).index t (1 : Fin 3) * 8 + 1 * r.val = r.val
    rw [hix]; simp
  | ⟨2, _⟩ =>
    show ((cfg0 a).win 2).index t (2 : Fin 3) * 2048 + 1 * q.val = q.val
    rw [hix]; simp

/-- The body's one store covers the output block, so the block holds the stored value: the body's arithmetic of the
    three input blocks. -/
theorem out_A (c : Dev nD) (i : grid0.Coords) (arg3 : Memref sig .tc .vmem S1x512x2048 .f32) (harg3 : arg3.IsWhole)
    (arg4 : Memref sig .tc .vmem S1x8x2048 .f32) (harg4 : arg4.IsWhole) (arg5 : Memref sig .tc .vmem S1x8x2048 .f32) (harg5 : arg5.IsWhole)
    (arg6 : Memref sig .tc .vmem S1x512x2048 .f32) (harg6 : arg6.IsWhole)
    (x0 : Vec F S1x512x2048 .f32) (x1 : Vec F S1x8x2048 .f32) (x2 : Vec F S1x8x2048 .f32) (xt0 : TbBuf0 (F := F) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz3]
  simp only [View.readAt_eq_ld, harg3.read_unread, harg4.read_unread, harg5.read_unread, View.ld_unit_zero (S := S1x512x2048) hz3,
    View.ld_unit_zero (S := S1x8x2048) hz3]

set_option backward.isDefEq.respectTransparency.types false in
/-- An index of the result is in point `t`'s block iff each coordinate is in the block's range on its axis. -/
theorem mem_blk3 (a : (pcfg0 (F := F)).Adm) (t : Fin (cfg0 a).N) (i : S16x2048x2048.Idx) :
    i ∈ (((cfg0 a).win 3).blk t).view.set ↔ ∀ d : Fin 3, ((cfg0 a).win 3).index t d * S1x512x2048.size d ≤ (i d).val
      ∧ (i d).val < ((cfg0 a).win 3).index t d * S1x512x2048.size d + S1x512x2048.size d := by
  show i ∈ ((View.whole main_v2).slice (((cfg0 a).win 3).rect t)).set ↔ _
  rw [View.set_slice_whole]
  exact Rect.mem_set_unit

/-- The output blocks tile the result: index `(b, s, o)` is in the block of point `4 b + s / 512`. -/
theorem cover3 (a : (pcfg0 (F := F)).Adm) (i : S16x2048x2048.Idx) :
    ∃ t : Fin (cfg0 a).N, ((cfg0 a).win 3).flush t = true ∧ i ∈ (((cfg0 a).win 3).blk t).view.set := by
  have h0 : (i 0).val < 16 := (i 0).isLt
  have h1 : (i 1).val < 2048 := (i 1).isLt
  have h2 : (i 2).val < 2048 := (i 2).isLt
  have hN : (cfg0 a).N = 64 := N_0
  refine ⟨⟨4 * (i 0).val + (i 1).val / 512, by omega⟩, flush0_3 a _, ?_⟩
  rw [mem_blk3]
  intro d
  have hi := idx3 a ⟨4 * (i 0).val + (i 1).val / 512, by omega⟩
  match d with
  | ⟨0, _⟩ =>
    show ((cfg0 a).win 3).index _ (0 : Fin 3) * 1 ≤ (i 0).val ∧ (i 0).val < ((cfg0 a).win 3).index _ (0 : Fin 3) * 1 + 1
    rw [hi]; simp; omega
  | ⟨1, _⟩ =>
    show ((cfg0 a).win 3).index _ (1 : Fin 3) * 512 ≤ (i 1).val ∧ (i 1).val < ((cfg0 a).win 3).index _ (1 : Fin 3) * 512 + 512
    rw [hi]; simp; omega
  | ⟨2, _⟩ =>
    show ((cfg0 a).win 3).index _ (2 : Fin 3) * 2048 ≤ (i 2).val ∧ (i 2).val < ((cfg0 a).win 3).index _ (2 : Fin 3) * 2048 + 2048
    rw [hi]; simp; omega

end Cert.KernelIdeal.Blocks

end
-- ==== Proof.KernelPayload.lean ====
/-
  The kernel body's arithmetic at one element of its output block: two contractions with the scale between them.

  The body drops the unit leading axis of its three blocks, contracts row `p` of the activations block with row `r` of
  the first adapter block over their common axis of 2048 (both operands are contracted on their SECOND axis, so the
  first adapter block enters as stored, rank coordinate first), multiplies the rank-8 result by the scale, contracts it
  with the second adapter block over the rank axis, and puts the unit axis back. A change of float format is the
  identity on extended reals, so it leaves no trace in the formula.
-/
import proofs.«412675_j34394098106459_3_alg».proof.Proof.Gen.KernelIdeal.Skeleton
import proofs.«412675_j34394098106459_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.ValueIdx Cert.LoraSpec

/-! ## The first contraction: `[512, 2048] × [8, 2048] → [512, 8]`, both operands contracted on axis 1

At output index `(p, r)` and contraction position `k` the left operand is read at `(p, k)` and the right at `(r, k)`. -/

/-- The left operand's row is the output's row. -/
theorem lhs_first_0 (j : S512x8.Idx) (q : dot_S512x2048_S8x2048_S512x8_1_1_0_0_n_n.contr.Idx) :
    (dot_S512x2048_S8x2048_S512x8_1_1_0_0_n_n.lhsIdx j q 0).val = (j 0).val := by
  unfold DotDims.lhsIdx
  rw [dif_neg (show ¬(0 : Fin S512x2048.rank) ∈ dot_S512x2048_S8x2048_S512x8_1_1_0_0_n_n.lhsBatch by decide), dif_pos (show (0 : Fin S512x2048.rank) ∈ dot_S512x2048_S8x2048_S512x8_1_1_0_0_n_n.lhsNonContracting by decide)]
  rfl
/-- The left operand's column is the contraction position. -/
theorem lhs_first_1 (j : S512x8.Idx) (q : dot_S512x2048_S8x2048_S512x8_1_1_0_0_n_n.contr.Idx) :
    (dot_S512x2048_S8x2048_S512x8_1_1_0_0_n_n.lhsIdx j q 1).val = (q ⟨0, by decide⟩).val :=
  dot_S512x2048_S8x2048_S512x8_1_1_0_0_n_n.lhsIdx_val_of_single rfl j q
/-- The right operand's row is the output's column. -/
theorem rhs_first_0 (j : S512x8.Idx) (q : dot_S512x2048_S8x2048_S512x8_1_1_0_0_n_n.contr.Idx) :
    (dot_S512x2048_S8x2048_S512x8_1_1_0_0_n_n.rhsIdx j q 0).val = (j 1).val := by
  unfold DotDims.rhsIdx
  rw [dif_neg (show ¬(0 : Fin S8x2048.rank) ∈ dot_S512x2048_S8x2048_S512x8_1_1_0_0_n_n.rhsBatch by decide), dif_pos (show (0 : Fin S8x2048.rank) ∈ dot_S512x2048_S8x2048_S512x8_1_1_0_0_n_n.rhsNonContracting by decide)]
  rfl
/-- The right operand's column is the contraction position. -/
theorem rhs_first_1 (j : S512x8.Idx) (q : dot_S512x2048_S8x2048_S512x8_1_1_0_0_n_n.contr.Idx) :
    (dot_S512x2048_S8x2048_S512x8_1_1_0_0_n_n.rhsIdx j q 1).val = (q ⟨0, by decide⟩).val :=
  dot_S512x2048_S8x2048_S512x8_1_1_0_0_n_n.rhsIdx_val_of_single rfl j q

/-- Into a zero accumulator the first product at `(p, r)` is Σ_i l[p, i] · r[r, i]. -/
theorem first_apply (l : FVec Ideal S512x2048 .bf16) (r : FVec Ideal S8x2048 .bf16) (p : Fin 512) (t : Fin 8) :
    matmul (F := Ideal) dot_S512x2048_S8x2048_S512x8_1_1_0_0_n_n none l r (constant (F := Ideal) S512x8 .f32 0x00000000#32) (ix2 p t)
      = ∑ i : Fin 2048, l (ix2 p i) * r (ix2 t i) := by
  refine (Ideal.matmul_constant_zero_apply dot_S512x2048_S8x2048_S512x8_1_1_0_0_n_n none l r (ix2 p t)).trans ?_
  rw [← Equiv.sum_comp (ValueIdx.contrEquiv1 dot_S512x2048_S8x2048_S512x8_1_1_0_0_n_n 2048 rfl rfl).symm]
  refine Finset.sum_congr rfl fun k _ => ?_
  have hk := ValueIdx.contrEquiv1_symm_val dot_S512x2048_S8x2048_S512x8_1_1_0_0_n_n 2048 rfl rfl k
  have el : dot_S512x2048_S8x2048_S512x8_1_1_0_0_n_n.lhsIdx (ix2 p t) ((ValueIdx.contrEquiv1 dot_S512x2048_S8x2048_S512x8_1_1_0_0_n_n 2048 rfl rfl).symm k) = ix2 p k := funext fun a => Fin.ext (by
    match a with
    | ⟨0, _⟩ => exact lhs_first_0 _ _
    | ⟨1, _⟩ => exact (lhs_first_1 _ _).trans hk)
  have er : dot_S512x2048_S8x2048_S512x8_1_1_0_0_n_n.rhsIdx (ix2 p t) ((ValueIdx.contrEquiv1 dot_S512x2048_S8x2048_S512x8_1_1_0_0_n_n 2048 rfl rfl).symm k) = ix2 t k := funext fun a => Fin.ext (by
    match a with
    | ⟨0, _⟩ => exact rhs_first_0 _ _
    | ⟨1, _⟩ => exact (rhs_first_1 _ _).trans hk)
  rw [el, er]

/-! ## The second contraction: `[512, 8] × [8, 2048] → [512, 2048]`, the left operand's axis 1 against the right's axis 0

At output index `(p, q)` and contraction position `k` the left operand is read at `(p, k)` and the right at `(k, q)`. -/

/-- The left operand's row is the output's row. -/
theorem lhs_second_0 (j : S512x2048.Idx) (q : dot_S512x8_S8x2048_S512x2048_1_0_0_1_n_n.contr.Idx) :
    (dot_S512x8_S8x2048_S512x2048_1_0_0_1_n_n.lhsIdx j q 0).val = (j 0).val := by
  unfold DotDims.lhsIdx
  rw [dif_neg (show ¬(0 : Fin S512x8.rank) ∈ dot_S512x8_S8x2048_S512x2048_1_0_0_1_n_n.lhsBatch by decide), dif_pos (show (0 : Fin S512x8.rank) ∈ dot_S512x8_S8x2048_S512x2048_1_0_0_1_n_n.lhsNonContracting by decide)]
  rfl
/-- The left operand's column is the contraction position. -/
theorem lhs_second_1 (j : S512x2048.Idx) (q : dot_S512x8_S8x2048_S512x2048_1_0_0_1_n_n.contr.Idx) :
    (dot_S512x8_S8x2048_S512x2048_1_0_0_1_n_n.lhsIdx j q 1).val = (q ⟨0, by decide⟩).val :=
  dot_S512x8_S8x2048_S512x2048_1_0_0_1_n_n.lhsIdx_val_of_single rfl j q
/-- The right operand's row is the contraction position. -/
theorem rhs_second_0 (j : S512x2048.Idx) (q : dot_S512x8_S8x2048_S512x2048_1_0_0_1_n_n.contr.Idx) :
    (dot_S512x8_S8x2048_S512x2048_1_0_0_1_n_n.rhsIdx j q 0).val = (q ⟨0, by decide⟩).val :=
  dot_S512x8_S8x2048_S512x2048_1_0_0_1_n_n.rhsIdx_val_of_single rfl j q
/-- The right operand's column is the output's column. -/
theorem rhs_second_1 (j : S512x2048.Idx) (q : dot_S512x8_S8x2048_S512x2048_1_0_0_1_n_n.contr.Idx) :
    (dot_S512x8_S8x2048_S512x2048_1_0_0_1_n_n.rhsIdx j q 1).val = (j 1).val := by
  unfold DotDims.rhsIdx
  rw [dif_neg (show ¬(1 : Fin S8x2048.rank) ∈ dot_S512x8_S8x2048_S512x2048_1_0_0_1_n_n.rhsBatch by decide), dif_pos (show (1 : Fin S8x2048.rank) ∈ dot_S512x8_S8x2048_S512x2048_1_0_0_1_n_n.rhsNonContracting by decide)]
  rfl

/-- Into a zero accumulator the second product at `(p, q)` is Σ_r l[p, r] · r[r, q]. -/
theorem second_apply (l : FVec Ideal S512x8 .bf16) (r : FVec Ideal S8x2048 .bf16) (p : Fin 512) (q : Fin 2048) :
    matmul (F := Ideal) dot_S512x8_S8x2048_S512x2048_1_0_0_1_n_n none l r (constant (F := Ideal) S512x2048 .f32 0x00000000#32) (ix2 p q)
      = ∑ t : Fin 8, l (ix2 p t) * r (ix2 t q) := by
  refine (Ideal.matmul_constant_zero_apply dot_S512x8_S8x2048_S512x2048_1_0_0_1_n_n none l r (ix2 p q)).trans ?_
  rw [← Equiv.sum_comp (ValueIdx.contrEquiv1 dot_S512x8_S8x2048_S512x2048_1_0_0_1_n_n 8 rfl rfl).symm]
  refine Finset.sum_congr rfl fun k _ => ?_
  have hk := ValueIdx.contrEquiv1_symm_val dot_S512x8_S8x2048_S512x2048_1_0_0_1_n_n 8 rfl rfl k
  have el : dot_S512x8_S8x2048_S512x2048_1_0_0_1_n_n.lhsIdx (ix2 p q) ((ValueIdx.contrEquiv1 dot_S512x8_S8x2048_S512x2048_1_0_0_1_n_n 8 rfl rfl).symm k) = ix2 p k := funext fun a => Fin.ext (by
    match a with
    | ⟨0, _⟩ => exact lhs_second_0 _ _
    | ⟨1, _⟩ => exact (lhs_second_1 _ _).trans hk)
  have er : dot_S512x8_S8x2048_S512x2048_1_0_0_1_n_n.rhsIdx (ix2 p q) ((ValueIdx.contrEquiv1 dot_S512x8_S8x2048_S512x2048_1_0_0_1_n_n 8 rfl rfl).symm k) = ix2 k q := funext fun a => Fin.ext (by
    match a with
    | ⟨0, _⟩ => exact (rhs_second_0 _ _).trans hk
    | ⟨1, _⟩ => exact rhs_second_1 _ _)
  rw [el, er]

/-! ## The body's stored value at an element -/

/-- Element `(0, p, q)` of the body's stored value: Σ_r ((Σ_i x0[0, p, i] · x1[0, r, i]) · scale) · x2[0, r, q]. -/
theorem pay_apply (x0 : Vec Ideal S1x512x2048 .f32) (x1 x2 : Vec Ideal S1x8x2048 .f32) (p : Fin 512) (q : Fin 2048) :
    k0_pay1 (F := Ideal) x0 x1 x2 (ix3 (0 : Fin 1) p q)
      = ∑ r : Fin 8, ((∑ i : Fin 2048, x0 (ix3 (0 : Fin 1) p i) * x1 (ix3 (0 : Fin 1) r i)) * scale) * x2 (ix3 (0 : Fin 1) r q) := by
  unfold k0_pay1
  -- the unit axis put back, then the second contraction, term by term in the rank coordinate
  refine (shapeCast_ab_1ab_apply _ _ (0 : Fin 1) p q).trans ?_
  refine (second_apply _ _ p q).trans ?_
  refine Finset.sum_congr rfl fun r _ => ?_
  refine congrArg₂ (· * ·) ?_ ?_
  · -- the scaled rank-8 intermediate at (p, r): the format change is the identity, the product is pointwise
    refine (truncf_apply (ψ := .bf16) (φ := .f32) _ _ _).trans ?_
    refine (mulf_apply _ _ _).trans ?_
    unfold scale
    refine congrArg₂ (· * ·) ?_ rfl
    refine (first_apply _ _ p r).trans ?_
    refine Finset.sum_congr rfl fun i _ => ?_
    exact congrArg₂ (· * ·) ((truncf_apply (ψ := .bf16) (φ := .f32) _ _ _).trans (shapeCast_1ab_ab_apply x0 _ p i))
      ((truncf_apply (ψ := .bf16) (φ := .f32) _ _ _).trans (shapeCast_1ab_ab_apply x1 _ r i))
  · -- the second adapter block at (r, q), its unit axis dropped
    exact (truncf_apply (ψ := .bf16) (φ := .f32) _ _ _).trans (shapeCast_1ab_ab_apply x2 _ r q)

end Cert.KernelIdeal.Payload

end
-- ==== Proof.KernelValue.lean ====
/-
  What the kernel's result array holds after the run, as one function of the argument arrays.

  Point `t` of the grid writes back, at `(0, p, q)` of its block, the body's arithmetic of its three input blocks:
  Σ_r ((Σ_i x[b, s, i] · Aᵀ[k, r, i]) · c) · B[k, r, q] with b = t / 4, s = 512 · (t % 4) + p, k the table's word for
  example b, and Aᵀ the first adapter pool with its last two axes exchanged by the host before the launch, so that
  Aᵀ[k, r, i] = A[k, i, r]. That is the block of the specification's inner-scaled form at the table's words; the 64 blocks
  tile the result, so the array ends at that form. When every index word is below 16 the table is the index words, and
  on real arrays the inner-scaled form is the specification.
-/
import proofs.«412675_j34394098106459_3_alg».proof.Proof.Gen.KernelIdeal.Frame
import proofs.«412675_j34394098106459_3_alg».proof.Proof.Spec
import proofs.«412675_j34394098106459_3_alg».proof.Proof.KernelBlocks
import proofs.«412675_j34394098106459_3_alg».proof.Proof.KernelIdealTbl
import proofs.«412675_j34394098106459_3_alg».proof.Proof.KernelPayload
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.LoraValue

open Cert.KernelIdeal Cert.KernelIdeal.Gen Cert.KernelIdeal.Blocks Cert.KernelIdeal.Tbl Cert.KernelIdeal.Payload
open Idealize.ShloMosaic Idealize.ShloMosaic.TcCoe Idealize.SL.Sem Idealize.ShloMosaic.ValueIdx Cert.LoraSpec
open Idealize.ShloMosaic.Pipeline (Dat)

variable (m : (ℓ : Loc nD τ sig) → Buf (Elt Ideal) ℓ) (ρ : Dev nD → PrngReg)

/-! ## The arrays the region finds -/

/-- The first adapter pool as the region finds it: the host has exchanged its last two axes. -/
theorem V_v1 (c : Dev nD) : V m c main_v1 = transpose S16x8x2048 [0, 2, 1] (m ((c : Thread nD τ).loc main_arg2)) transposes_S16x2048x8_S16x8x2048_0_2_1 := by
  dsimp only [V]
  simp only [hostOps0, hostOps0_1, hostOps0_2, List.flatten_cons, List.flatten_nil, List.append_nil, List.cons_append, List.nil_append]
  after_results

theorem V_v1_apply (c : Dev nD) (k : Fin 16) (r : Fin 8) (i : Fin 2048) :
    V m c main_v1 (ix3 k r i) = m ((c : Thread nD τ).loc main_arg2) (ix3 k i r) := by
  rw [V_v1]
  exact transpose_ix3_021_apply _ _ k r i

/-! ## The blocks at a point -/

/-- The word of the table for the example of point `t`, when it is below 16, is the block index of both adapter windows. -/
theorem index1_eq (a : (pcfg0 (F := Ideal)).Adm) (t : Fin (cfg0 a).N) (b : Fin 16) (hb : b.val = t.val / 4)
    (hT : (a.1 0 (ix1 b)).toNat < 16) : ((cfg0 a).win 1).index t = ![(adapter (a.1 0) b).val, 0, 0] := by
  rw [idx1, transform_1_eq]
  have e : (⟨(grid0.coords t 0).val, (grid0.coords t 0).isLt⟩ : Fin 16) = b := Fin.ext ((co0 t).trans hb.symm)
  rw [e]
  show _ = ![min (a.1 0 (ix1 b)).toNat 15, 0, 0]
  rw [Nat.min_eq_left (by omega)]

theorem index2_eq (a : (pcfg0 (F := Ideal)).Adm) (t : Fin (cfg0 a).N) (b : Fin 16) (hb : b.val = t.val / 4)
    (hT : (a.1 0 (ix1 b)).toNat < 16) : ((cfg0 a).win 2).index t = ![(adapter (a.1 0) b).val, 0, 0] := by
  rw [idx2, transform_2_eq]
  have e : (⟨(grid0.coords t 0).val, (grid0.coords t 0).isLt⟩ : Fin 16) = b := Fin.ext ((co0 t).trans hb.symm)
  rw [e]
  show _ = ![min (a.1 0 (ix1 b)).toNat 15, 0, 0]
  rw [Nat.min_eq_left (by omega)]

/-- The example and the sequence row an element `p` of point `t`'s block belongs to. -/
abbrev exOf (hO : Ok m) (t : Fin (cfgM m hO).N) : Fin 16 := ⟨t.val / 4, by have := t_lt (adm m hO) t; omega⟩
abbrev rowOf (hO : Ok m) (t : Fin (cfgM m hO).N) (p : Fin 512) : Fin 2048 := ⟨512 * (t.val % 4) + p.val, by omega⟩

theorem iblk0_apply (hO : Ok m) (c : Dev nD) (t : Fin (cfgM m hO).N) (p : Fin 512) (i : Fin 2048) :
    iblk m hO c 0 t (ix3 (0 : Fin 1) p i) = m ((c : Thread nD τ).loc main_arg0) (ix3 (exOf m hO t) (rowOf m hO t p) i) := by
  unfold iblk
  refine (read0 (adm m hO) t (V m c main_arg0) p i).trans ?_
  exact congrFun (V_main_arg0 m c) _

theorem iblk1_apply (hO : Ok m) (hT : ∀ b : Fin 16, (tbl m 0 (ix1 b)).toNat < 16) (c : Dev nD) (t : Fin (cfgM m hO).N) (r : Fin 8) (i : Fin 2048) :
    iblk m hO c 1 t (ix3 (0 : Fin 1) r i) = m ((c : Thread nD τ).loc main_arg2) (ix3 (adapter (tbl m 0) (exOf m hO t)) i r) := by
  unfold iblk
  refine (read1 (adm m hO) t (adapter (tbl m 0) (exOf m hO t)) (index1_eq (adm m hO) t (exOf m hO t) rfl (hT _)) (V m c main_v1) r i).trans ?_
  exact V_v1_apply m c _ r i

theorem iblk2_apply (hO : Ok m) (hT : ∀ b : Fin 16, (tbl m 0 (ix1 b)).toNat < 16) (c : Dev nD) (t : Fin (cfgM m hO).N) (r : Fin 8) (q : Fin 2048) :
    iblk m hO c 2 t (ix3 (0 : Fin 1) r q) = m ((c : Thread nD τ).loc main_arg3) (ix3 (adapter (tbl m 0) (exOf m hO t)) r q) := by
  unfold iblk
  refine (read2 (adm m hO) t (adapter (tbl m 0) (exOf m hO t)) (index2_eq (adm m hO) t (exOf m hO t) rfl (hT _)) (V m c main_arg3) r q).trans ?_
  exact congrFun (V_main_arg3 m c) _

/-! ## The result array -/

/-- The inner-scaled form at the table's words, as an array. -/
def kerArr (c : Dev nD) : S16x2048x2048.Idx → EReal := fun j =>
  loraInnerAt (m ((c : Thread nD τ).loc main_arg0)) (m ((c : Thread nD τ).loc main_arg2)) (m ((c : Thread nD τ).loc main_arg3)) (tbl m 0) (j 0) (j 1) (j 2)

/-- What point `t` writes back is block `t` of that array. -/
theorem flushed_eq (hO : Ok m) (hT : ∀ b : Fin 16, (tbl m 0 (ix1 b)).toNat < 16) (c : Dev nD) (t : Fin (cfgM m hO).N) :
    (dats m hO 0 c).flushed 3 t = (((cfgM m hO).win 3).blk t).view.read (Elt Ideal) (kerArr m c) := by
  show ((cfgM m hO).win 3).cut ((cfgM m hO).grid.coords t) ((dats m hO 0 c).after 3 t) = _
  rw [after0_3]
  refine funext fun (y : S1x512x2048.Idx) => ?_
  obtain ⟨z, p, q, rfl⟩ : ∃ (z : Fin 1) (p : Fin 512) (q : Fin 2048), y = ix3 z p q := ⟨y 0, y 1, y 2, eq_ix3 y⟩
  obtain rfl : z = 0 := Subsingleton.elim _ _
  refine Eq.trans ?_ (read3 (adm m hO) t (kerArr m c) p q).symm
  show outsAt0 m hO c t (ix3 (0 : Fin 1) p q) = _
  unfold outsAt0
  refine (congrFun (out_A c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)) (ix3 (0 : Fin 1) p q)).trans ?_
  refine (pay_apply (iblk m hO c 0 t) (iblk m hO c 1 t) (iblk m hO c 2 t) p q).trans ?_
  show _ = loraInnerAt _ _ _ _ _ _ _
  unfold loraInnerAt proj
  refine Finset.sum_congr rfl fun r _ => ?_
  rw [iblk2_apply m hO hT c t r q]
  refine congrArg (· * _) (congrArg (· * scale) (Finset.sum_congr rfl fun i _ => ?_))
  rw [iblk0_apply m hO c t p i, iblk1_apply m hO hT c t r i]

/-- The 64 blocks tile the result: it ends at the inner-scaled form. -/
theorem final (hO : Ok m) (hT : ∀ b : Fin 16, (tbl m 0 (ix1 b)).toNat < 16) (c : Dev nD) :
    (dats m hO 0 c).arrAt 3 (cfgM m hO).N = kerArr m c :=
  (dats m hO 0 c).arrAt_eq_of_cover 3 (kerArr m c) (fun t _ => flushed_eq m hO hT c t) (cover3 (adm m hO))

/-- The run, read: the result array at the inner-scaled form, the four arguments unchanged. -/
theorem run (hO : Ok m) (hT : ∀ b : Fin 16, (tbl m 0 (ix1 b)).toNat < 16) :
    θ_run defs (onTc (τ := τ) (main (F := Ideal))) ⟨m, fun _ => 0, ρ⟩ fun r => ∀ c : Dev nD,
      r.2.mem ((c : Thread nD τ).loc main_v2) = kerArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 3).trans (final m hO hT c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-! ## The inner-scaled form at the table's words is the specification -/

/-- With every index word below 16, and every float entry a real number, the array the kernel leaves is the
    specification's function of the four argument arrays. -/
theorem kerArr_eq (h : ∀ b : Fin 16, (idxOf m (ix1 b)).toNat < 16)
    (hx : ∀ j, IsReal (m (((0 : Dev nD) : Thread nD τ).loc main_arg0) j))
    (hA : ∀ j, IsReal (m (((0 : Dev nD) : Thread nD τ).loc main_arg2) j))
    (hB : ∀ j, IsReal (m (((0 : Dev nD) : Thread nD τ).loc main_arg3) j)) :
    kerArr m 0 = lora (m (((0 : Dev nD) : Thread nD τ).loc main_arg0)) (m (((0 : Dev nD) : Thread nD τ).loc main_arg2))
      (m (((0 : Dev nD) : Thread nD τ).loc main_arg3)) (idxOf m) := by
  have ht : (tbl m 0 : S16.Idx → BitVec 32) = idxOf m := funext fun (j : S16.Idx) => by
    rw [eq_ix1 j]; exact tbl_eq m h (j 0)
  funext j
  unfold kerArr lora
  rw [ht]
  exact loraInnerAt_eq _ _ _ _ hx hA hB _ _ _

end Cert.KernelIdeal.LoraValue

end
-- ==== Proof.RefValue.lean ====
/-
  The reference's result, read one operation at a time, is the specification's function of the argument arrays when
  every index word is below 16: the wrap of negative words does nothing, the gather's clamp is the cap, and the two
  contractions and the final scaling are the specification's sums.
-/
import proofs.«412675_j34394098106459_3_alg».proof.Proof.Gen.ReferenceIdeal.Run
import proofs.«412675_j34394098106459_3_alg».proof.Proof.Gen.ReferenceIdeal.Read
import proofs.«412675_j34394098106459_3_alg».proof.Proof.Spec
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LoraSpec

/-! ## Words: a small index word is not wrapped -/

/-- A word below 16 is not negative, so the wrap `select (w < 0) (w + 16) w` returns it. -/
theorem wrap_small (w : BitVec 32) (hw : w.toNat < 16) :
    Scalar.select (IntOp.cmpi .slt w 0#32) (IntOp.addi w 16#32) w = w := by
  have h0 : IntOp.cmpi .slt w 0#32 = 0#1 := by
    refine eq_zero_of_ne_one fun h => ?_
    have := (StableHlo.Predicate.slt_iff_toNat (a := w) (b := 0#32) (by omega) (by decide)).mp h
    simp at this
  rw [h0, select_zero]

/-- A word below 16 read signed and then as a natural number is its value. -/
theorem toInt_toNat_small (w : BitVec 32) (hw : w.toNat < 16) : w.toInt.toNat = w.toNat := by
  rw [StableHlo.Predicate.toInt_eq_toNat_of_lt (by omega)]
  exact Int.toNat_natCast _

/-! ## The wrapped start indices are the index words -/

/-- The first start-indices array at `[b, 0]` is example `b`'s index word. -/
theorem v5_at (idx : IVec S16 32) (hidx : ∀ b : Fin 16, (idx (ix1 b)).toNat < 16) (b : Fin 16) :
    val_main_v5 (F := Ideal) idx (ix2 b (0 : Fin 1)) = idx (ix1 b) := by
  have e : idx_main_v5 (ix2 b (0 : Fin 1)) = ix1 b := by
    funext a; match a with | ⟨0, _⟩ => rfl
  rw [val_main_v5_apply, e, val_main_v4_apply, val_main_v1_apply, val_main_v0_apply, val_main_c_apply,
    val_main_v3_apply, val_main_v2_apply, val_main_c_0_apply]
  exact wrap_small _ (hidx b)

/-- The second start-indices array at `[b, 0]` is example `b`'s index word. -/
theorem v12_at (idx : IVec S16 32) (hidx : ∀ b : Fin 16, (idx (ix1 b)).toNat < 16) (b : Fin 16) :
    val_main_v12 (F := Ideal) idx (ix2 b (0 : Fin 1)) = idx (ix1 b) := by
  have e : idx_main_v12 (ix2 b (0 : Fin 1)) = ix1 b := by
    funext a; match a with | ⟨0, _⟩ => rfl
  rw [val_main_v12_apply, e, val_main_v11_apply, val_main_v8_apply, val_main_v7_apply, val_main_c_1_apply,
    val_main_v10_apply, val_main_v9_apply, val_main_c_2_apply]
  exact wrap_small _ (hidx b)

/-! ## The two gathers read at an index -/

/-- The gather of the first adapter pool at `(b, i, r)`: the pool at the start index `[b, 0]` of the start indices,
    read signed and capped at 15, and the result's own two trailing coordinates. -/
theorem gatherA_apply {α : Type} (y : S16x2048x8.Idx → α) (ix : IVec S16x1 32) (b : Fin 16) (i : Fin 2048) (r : Fin 8) :
    Host.gather gather_S16x2048x8_S16x1_S16x2048x8_12_0_n_n_0_1_120488 y ix (ix3 b i r)
      = y (ix3 (⟨min (ix (ix2 b (0 : Fin 1))).toInt.toNat 15, by omega⟩ : Fin 16) i r) := by
  unfold Host.gather
  congr 1
  funext a
  refine Fin.ext ?_
  match a with
  | ⟨0, _⟩ =>
    show gather_S16x2048x8_S16x1_S16x2048x8_12_0_n_n_0_1_120488.start (ix3 b i r) ix 0
      + gather_S16x2048x8_S16x1_S16x2048x8_12_0_n_n_0_1_120488.batchCoord (ix3 b i r) 0
      + gather_S16x2048x8_S16x1_S16x2048x8_12_0_n_n_0_1_120488.offCoord (ix3 b i r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x2048x8_S16x1_S16x2048x8_12_0_n_n_0_1_120488.startIndexMap from
      List.mem_singleton.mpr rfl)]
    have hsi : gather_S16x2048x8_S16x1_S16x2048x8_12_0_n_n_0_1_120488.siIdx (ix3 b i r)
        ⟨List.idxOf (0 : Fin 3) gather_S16x2048x8_S16x1_S16x2048x8_12_0_n_n_0_1_120488.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S16x2048x8_S16x1_S16x2048x8_12_0_n_n_0_1_120488.start (ix3 b i r) ix 1
      + gather_S16x2048x8_S16x1_S16x2048x8_12_0_n_n_0_1_120488.batchCoord (ix3 b i r) 1
      + gather_S16x2048x8_S16x1_S16x2048x8_12_0_n_n_0_1_120488.offCoord (ix3 b i r) 1 = i.val
    rw [GatherDims.batchCoord_eq_zero _ _ _ List.not_mem_nil]
    unfold GatherDims.start
    rw [dif_neg (show ¬ (1 : Fin 3) ∈ gather_S16x2048x8_S16x1_S16x2048x8_12_0_n_n_0_1_120488.startIndexMap by decide)]
    simp only [Nat.add_zero, Nat.zero_add]
    rfl
  | ⟨2, _⟩ =>
    show gather_S16x2048x8_S16x1_S16x2048x8_12_0_n_n_0_1_120488.start (ix3 b i r) ix 2
      + gather_S16x2048x8_S16x1_S16x2048x8_12_0_n_n_0_1_120488.batchCoord (ix3 b i r) 2
      + gather_S16x2048x8_S16x1_S16x2048x8_12_0_n_n_0_1_120488.offCoord (ix3 b i r) 2 = r.val
    rw [GatherDims.batchCoord_eq_zero _ _ _ List.not_mem_nil]
    unfold GatherDims.start
    rw [dif_neg (show ¬ (2 : Fin 3) ∈ gather_S16x2048x8_S16x1_S16x2048x8_12_0_n_n_0_1_120488.startIndexMap by decide)]
    simp only [Nat.add_zero, Nat.zero_add]
    rfl

/-- The gather of the second adapter pool at `(b, r, o)`: the pool at the start index `[b, 0]` of the start indices,
    read signed and capped at 15, and the result's own two trailing coordinates. -/
theorem gatherB_apply {α : Type} (y : S16x8x2048.Idx → α) (ix : IVec S16x1 32) (b : Fin 16) (i : Fin 8) (r : Fin 2048) :
    Host.gather gather_S16x8x2048_S16x1_S16x8x2048_12_0_n_n_0_1_182048 y ix (ix3 b i r)
      = y (ix3 (⟨min (ix (ix2 b (0 : Fin 1))).toInt.toNat 15, by omega⟩ : Fin 16) i r) := by
  unfold Host.gather
  congr 1
  funext a
  refine Fin.ext ?_
  match a with
  | ⟨0, _⟩ =>
    show gather_S16x8x2048_S16x1_S16x8x2048_12_0_n_n_0_1_182048.start (ix3 b i r) ix 0
      + gather_S16x8x2048_S16x1_S16x8x2048_12_0_n_n_0_1_182048.batchCoord (ix3 b i r) 0
      + gather_S16x8x2048_S16x1_S16x8x2048_12_0_n_n_0_1_182048.offCoord (ix3 b i r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x8x2048_S16x1_S16x8x2048_12_0_n_n_0_1_182048.startIndexMap from
      List.mem_singleton.mpr rfl)]
    have hsi : gather_S16x8x2048_S16x1_S16x8x2048_12_0_n_n_0_1_182048.siIdx (ix3 b i r)
        ⟨List.idxOf (0 : Fin 3) gather_S16x8x2048_S16x1_S16x8x2048_12_0_n_n_0_1_182048.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S16x8x2048_S16x1_S16x8x2048_12_0_n_n_0_1_182048.start (ix3 b i r) ix 1
      + gather_S16x8x2048_S16x1_S16x8x2048_12_0_n_n_0_1_182048.batchCoord (ix3 b i r) 1
      + gather_S16x8x2048_S16x1_S16x8x2048_12_0_n_n_0_1_182048.offCoord (ix3 b i r) 1 = i.val
    rw [GatherDims.batchCoord_eq_zero _ _ _ List.not_mem_nil]
    unfold GatherDims.start
    rw [dif_neg (show ¬ (1 : Fin 3) ∈ gather_S16x8x2048_S16x1_S16x8x2048_12_0_n_n_0_1_182048.startIndexMap by decide)]
    simp only [Nat.add_zero, Nat.zero_add]
    rfl
  | ⟨2, _⟩ =>
    show gather_S16x8x2048_S16x1_S16x8x2048_12_0_n_n_0_1_182048.start (ix3 b i r) ix 2
      + gather_S16x8x2048_S16x1_S16x8x2048_12_0_n_n_0_1_182048.batchCoord (ix3 b i r) 2
      + gather_S16x8x2048_S16x1_S16x8x2048_12_0_n_n_0_1_182048.offCoord (ix3 b i r) 2 = r.val
    rw [GatherDims.batchCoord_eq_zero _ _ _ List.not_mem_nil]
    unfold GatherDims.start
    rw [dif_neg (show ¬ (2 : Fin 3) ∈ gather_S16x8x2048_S16x1_S16x8x2048_12_0_n_n_0_1_182048.startIndexMap by decide)]
    simp only [Nat.add_zero, Nat.zero_add]
    rfl

/-- The first gathered pool at `(b, i, r)` is adapter `adapter idx b`'s entry `(i, r)`. -/
theorem v6_at (idx : IVec S16 32) (A : FVec Ideal S16x2048x8 .f32) (hidx : ∀ b : Fin 16, (idx (ix1 b)).toNat < 16)
    (b : Fin 16) (i : Fin 2048) (r : Fin 8) :
    val_main_v6 (F := Ideal) idx A (ix3 b i r) = A (ix3 (adapter idx b) i r) := by
  unfold val_main_v6
  refine (gatherA_apply A (val_main_v5 (F := Ideal) idx) b i r).trans ?_
  refine congrArg A ?_
  have e : (⟨min (val_main_v5 (F := Ideal) idx (ix2 b (0 : Fin 1))).toInt.toNat 15, by omega⟩ : Fin 16) = adapter idx b := by
    refine Fin.ext ?_
    show min (val_main_v5 (F := Ideal) idx (ix2 b (0 : Fin 1))).toInt.toNat 15 = min (idx (ix1 b)).toNat 15
    rw [v5_at idx hidx b, toInt_toNat_small _ (hidx b)]
  rw [e]

/-- The second gathered pool at `(b, r, o)` is adapter `adapter idx b`'s entry `(r, o)`. -/
theorem v13_at (idx : IVec S16 32) (B : FVec Ideal S16x8x2048 .f32) (hidx : ∀ b : Fin 16, (idx (ix1 b)).toNat < 16)
    (b : Fin 16) (r : Fin 8) (o : Fin 2048) :
    val_main_v13 (F := Ideal) idx B (ix3 b r o) = B (ix3 (adapter idx b) r o) := by
  unfold val_main_v13
  refine (gatherB_apply B (val_main_v12 (F := Ideal) idx) b r o).trans ?_
  refine congrArg B ?_
  have e : (⟨min (val_main_v12 (F := Ideal) idx (ix2 b (0 : Fin 1))).toInt.toNat 15, by omega⟩ : Fin 16) = adapter idx b := by
    refine Fin.ext ?_
    show min (val_main_v12 (F := Ideal) idx (ix2 b (0 : Fin 1))).toInt.toNat 15 = min (idx (ix1 b)).toNat 15
    rw [v12_at idx hidx b, toInt_toNat_small _ (hidx b)]
  rw [e]

/-! ## The stages composed -/

/-- The reference's last stage is the specification. -/
theorem ref_eq (x : FVec Ideal S16x2048x2048 .f32) (idx : IVec S16 32) (A : FVec Ideal S16x2048x8 .f32) (B : FVec Ideal S16x8x2048 .f32)
    (hidx : ∀ b : Fin 16, (idx (ix1 b)).toNat < 16) :
    val_main_v17 (F := Ideal) x idx A B = lora x A B idx := by
  funext j
  obtain ⟨b, s, o, rfl⟩ : ∃ (b : Fin 16) (s o : Fin 2048), j = ix3 b s o := ⟨j 0, j 1, j 2, eq_ix3 j⟩
  rw [lora_ix3]
  unfold loraAt proj
  rw [val_main_v17_apply, val_main_v16_apply, val_main_cst_apply, val_main_v15_apply, Ideal.mulf_def, Ideal.ofBits_def]
  show _ * scale = _ * scale
  refine congrArg (· * scale) ?_
  refine Finset.sum_congr rfl fun r _ => ?_
  have el : lidx_main_v15 (ix3 b s o) r = ix3 b s r :=
    funext fun a => Fin.ext (by match a with | ⟨0, _⟩ => rfl | ⟨1, _⟩ => rfl | ⟨2, _⟩ => rfl)
  have er : ridx_main_v15 (ix3 b s o) r = ix3 b r o :=
    funext fun a => Fin.ext (by match a with | ⟨0, _⟩ => rfl | ⟨1, _⟩ => rfl | ⟨2, _⟩ => rfl)
  rw [el, er, v13_at idx B hidx b r o, val_main_v14_apply]
  refine congrArg (· * B (ix3 (adapter idx b) r o)) ?_
  refine Finset.sum_congr rfl fun i _ => ?_
  have el' : lidx_main_v14 (ix3 b s r) i = ix3 b s i :=
    funext fun a => Fin.ext (by match a with | ⟨0, _⟩ => rfl | ⟨1, _⟩ => rfl | ⟨2, _⟩ => rfl)
  have er' : ridx_main_v14 (ix3 b s r) i = ix3 b i r :=
    funext fun a => Fin.ext (by match a with | ⟨0, _⟩ => rfl | ⟨1, _⟩ => rfl | ⟨2, _⟩ => rfl)
  rw [el', er', v6_at idx A hidx b i r]

end Cert.ReferenceIdeal.RefValue

end
-- ==== Proof.lean ====
/-
  The kernel gathers one of sixteen low-rank adapter pairs per example and applies it to the example's activations,
  out[b] = ((x[b] · A[k_b]) · 2) · B[k_b]; the reference computes ((x[b] · A[k_b]) · B[k_b]) · 2. The adapter index k_b is
  the b-th index word: the kernel clamps it to [0, 15] on the host and reads it through a prefetched table, the reference
  wraps a negative word once and lets the gather clamp. Under the precondition — every float entry finite, every index
  word in [0, 16) — both are the word itself, every sum is a sum of real numbers, and the scale moves out of the
  rank-8 contraction by distributivity: the two results are one function of the argument arrays (Proof/Spec.lean).

  The frames of the two kernel programs are the generated ones, which hold once each adapter block the table names lies
  inside its pool: that is what the clamp (and here already the precondition) gives. The reference's frame is its
  generated run with the result dropped. The idealization rewrote nothing.
-/
import proofs.«412675_j34394098106459_3_alg».proof.Defs
import proofs.«412675_j34394098106459_3_alg».proof.Proof.Gen.Kernel
import proofs.«412675_j34394098106459_3_alg».proof.Proof.Gen.Kernel.Frame
import proofs.«412675_j34394098106459_3_alg».proof.Proof.Gen.KernelIdeal
import proofs.«412675_j34394098106459_3_alg».proof.Proof.Gen.KernelIdeal.Frame
import proofs.«412675_j34394098106459_3_alg».proof.Proof.Gen.ReferenceIdeal
import proofs.«412675_j34394098106459_3_alg».proof.Proof.Gen.ReferenceIdeal.Run
import proofs.«412675_j34394098106459_3_alg».proof.Proof.Gen.ReferenceIdeal.Read
import proofs.«412675_j34394098106459_3_alg».proof.Proof.Gen.Pre_finite_inputs
import proofs.«412675_j34394098106459_3_alg».proof.Proof.Spec
import proofs.«412675_j34394098106459_3_alg».proof.Proof.PreFacts
import proofs.«412675_j34394098106459_3_alg».proof.Proof.KernelTbl
import proofs.«412675_j34394098106459_3_alg».proof.Proof.KernelIdealTbl
import proofs.«412675_j34394098106459_3_alg».proof.Proof.KernelValue
import proofs.«412675_j34394098106459_3_alg».proof.Proof.RefValue
import Idealize.ShloMosaic.Adequacy
import Idealize.ShloMosaic.Init

noncomputable section

namespace Cert.Proof

open Idealize.ShloMosaic Idealize.SL.Sem Idealize.ShloMosaic.ValueIdx Cert.LoraSpec

/-- The word-level kernel runs and leaves its arguments: the table's words are below 16. -/
theorem frame_k : Cert.frame_Kernel := fun m ρ h =>
  Cert.Kernel.Gen.frame m ρ (Cert.Kernel.Tbl.ok_of_lt m fun b => Cert.LoraPre.idx_lt _ _ _ _ (h 0) b)

/-- The same for the kernel read over the extended reals. -/
theorem frame_ki : Cert.frame_KernelIdeal := fun m ρ h =>
  Cert.KernelIdeal.Gen.frame m ρ (Cert.KernelIdeal.Tbl.ok_of_lt m fun b => Cert.LoraPre.idx_lt _ _ _ _ (h 0) b)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's function of the (agreeing) argument arrays. -/
theorem algebraic : Cert.algebraic_KernelIdeal_ReferenceIdeal := by
  intro m ρ m' ρ' hpre hagree
  have hp := hpre 0
  have hidx : ∀ b : Fin 16, (Cert.KernelIdeal.Tbl.idxOf m (ix1 b)).toNat < 16 := fun b => Cert.LoraPre.idx_lt _ _ _ _ hp b
  have hO : Cert.KernelIdeal.Gen.Ok m := Cert.KernelIdeal.Tbl.ok_of_lt m hidx
  have hT : ∀ b : Fin 16, (Cert.KernelIdeal.Gen.tbl m 0 (ix1 b)).toNat < 16 := fun b => by
    rw [Cert.KernelIdeal.Tbl.tbl_eq m hidx b]; exact hidx b
  refine ⟨fun c => lora (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.LoraValue.run m ρ hO hT)
    obtain rfl : c = 0 := Subsingleton.elim _ _
    exact ⟨(h 0).1.trans (Cert.KernelIdeal.LoraValue.kerArr_eq m hidx (Cert.LoraPre.x_real _ _ _ _ hp)
      (Cert.LoraPre.a_real _ _ _ _ hp) (Cert.LoraPre.b_real _ _ _ _ hp)), (h 0).2⟩
  · refine (θ_run Cert.ReferenceIdeal.defs _ _).mono (fun _ h c => ⟨(h c).1.trans ?_, (h c).2⟩)
      (Cert.ReferenceIdeal.Value.run (F := Ideal) m' ρ')
    obtain rfl : c = 0 := Subsingleton.elim _ _
    refine (Cert.ReferenceIdeal.Read.val_main_v17_eq _ _ _ _).trans ?_
    rw [(hagree 0).1, (hagree 0).2.1, (hagree 0).2.2.1, (hagree 0).2.2.2]
    exact Cert.ReferenceIdeal.RefValue.ref_eq _ _ _ _ hidx

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
